-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x512x4096 : Shape := ⟨3, ![16, 512, 4096]⟩
abbrev S1x256x4096 : Shape := ⟨3, ![1, 256, 4096]⟩
abbrev S1x512x4096 : Shape := ⟨3, ![1, 512, 4096]⟩
abbrev S256x4096 : Shape := ⟨2, ![256, 4096]⟩
abbrev S512x4096 : Shape := ⟨2, ![512, 4096]⟩
abbrev S256x512 : Shape := ⟨2, ![256, 512]⟩
abbrev S256 : Shape := ⟨1, ![256]⟩
abbrev S256x1 : Shape := ⟨2, ![256, 1]⟩
abbrev S1x512x64x64 : Shape := ⟨4, ![1, 512, 64, 64]⟩
abbrev S1x512x64 : Shape := ⟨3, ![1, 512, 64]⟩
abbrev S1x512x64x1 : Shape := ⟨4, ![1, 512, 64, 1]⟩

abbrev nBuf : Space → Nat
  | .hbm => 7
  | .vmem => 10
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x4096, .bf16⟩
  | .hbm, ⟨5, _⟩ => ⟨S16x512x64x64, .bf16⟩
  | .hbm, ⟨6, _⟩ => ⟨S16x512x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S1x512x64x64, .bf16⟩
  | .local _ .vmem, ⟨7, _⟩ => ⟨S1x512x64x64, .bf16⟩
  | .local _ .vmem, ⟨8, _⟩ => ⟨S1x512x64x64, .f32⟩
  | .local _ .vmem, ⟨9, _⟩ => ⟨S1x512x64x64, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x512x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S16x512x64x64_S16x512x4096 : S16x512x64x64.ShapeCasts S16x512x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  reduces_S256x512_S256 : S256x512.Reduces [1] S256
  shapeCasts_S256_S256x1 : S256.ShapeCasts S256x1
  broadcasts_S256x1_S256x512 : S256x1.Broadcasts S256x512
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  shapeCasts_S16x512x4096_S16x512x64x64 : S16x512x4096.ShapeCasts S16x512x64x64
  inb_S1x512x64x64_S1x512x64x64_0_0_0_0 : ∀ a, (![0, 0, 0, 0] : Fin 4 → Nat) a + S1x512x64x64.size a ≤ S1x512x64x64.size a
  h_S1x512x64x64 : 0 < S1x512x64x64.numel
  shapeCasts_S1x512x64x64_S1x512x64x64 : S1x512x64x64.ShapeCasts S1x512x64x64
  reduces_S1x512x64x64_S1x512x64 : S1x512x64x64.Reduces [3] S1x512x64
  shapeCasts_S1x512x64_S1x512x64x1 : S1x512x64.ShapeCasts S1x512x64x1
  broadcasts_S1x512x64x1_S1x512x64x64 : S1x512x64x1.Broadcasts S1x512x64x64
  dot_S256x4096_S512x4096_S256x512_1_1_0_0_n_n_wf : DotDims.WF S256x4096 S512x4096 S256x512 [1] [1] [0] [0] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x512x4096.size a
  hwx0_0 : ∀ i : grid0.Coords, EltTy.bits .f32 = 32 ∨ (Rect.block (s := S16x512x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S16x512x4096.size a
  hwx0_2 : ∀ i : grid0.Coords, EltTy.bits .bf16 = 32 ∨ (Rect.block (s := S16x512x4096) S1x256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64x64.size a ≤ S16x512x64x64.size a
  hwx1_0 : ∀ i : grid1.Coords, EltTy.bits .bf16 = 32 ∨ (Rect.block (s := S16x512x64x64) S1x512x64x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64x64.size a ≤ S16x512x64x64.size a
  hwx1_1 : ∀ i : grid1.Coords, EltTy.bits .f32 = 32 ∨ (Rect.block (s := S16x512x64x64) S1x512x64x64.size (cc1_transform_1 i) (hinb1_1 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x64x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x512x64 : Shape := ⟨3, ![16, 512, 64]⟩
abbrev S16x512x64x1 : Shape := ⟨4, ![16, 512, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S_, .f32⟩
  | .hbm, ⟨6, _⟩ => ⟨S16x512, .f32⟩
  | .hbm, ⟨7, _⟩ => ⟨S16x512x1, .f32⟩
  | .hbm, ⟨8, _⟩ => ⟨S16x512x512, .f32⟩
  | .hbm, ⟨9, _⟩ => ⟨S16x512x512, .f32⟩
  | .hbm, ⟨10, _⟩ => ⟨S_, .f32⟩
  | .hbm, ⟨11, _⟩ => ⟨S16x512, .f32⟩
  | .hbm, ⟨12, _⟩ => ⟨S_, .f32⟩
  | .hbm, ⟨13, _⟩ => ⟨S16x512, .f32⟩
  | .hbm, ⟨14, _⟩ => ⟨S16x512, .f32⟩
  | .hbm, ⟨15, _⟩ => ⟨S16x512x1, .f32⟩
  | .hbm, ⟨16, _⟩ => ⟨S16x512x512, .f32⟩
  | .hbm, ⟨17, _⟩ => ⟨S16x512x512, .f32⟩
  | .hbm, ⟨18, _⟩ => ⟨S16x512x512, .f32⟩
  | .hbm, ⟨19, _⟩ => ⟨S_, .f32⟩
  | .hbm, ⟨20, _⟩ => ⟨S16x512, .f32⟩
  | .hbm, ⟨21, _⟩ => ⟨S16x512x1, .f32⟩
  | .hbm, ⟨22, _⟩ => ⟨S16x512x512, .f32⟩
  | .hbm, ⟨23, _⟩ => ⟨S16x512x512, .f32⟩
  | .hbm, ⟨24, _⟩ => ⟨S16x512x4096, .f32⟩
  | .hbm, ⟨25, _⟩ => ⟨S16x512x64x64, .f32⟩
  | .hbm, ⟨26, _⟩ => ⟨S_, .f32⟩
  | .hbm, ⟨27, _⟩ => ⟨S16x512x64, .f32⟩
  | .hbm, ⟨28, _⟩ => ⟨S_, .f32⟩
  | .hbm, ⟨29, _⟩ => ⟨S16x512x64, .f32⟩
  | .hbm, ⟨30, _⟩ => ⟨S16x512x64, .f32⟩
  | .hbm, ⟨31, _⟩ => ⟨S16x512x64x1, .f32⟩
  | .hbm, ⟨32, _⟩ => ⟨S16x512x64x64, .f32⟩
  | .hbm, ⟨33, _⟩ => ⟨S16x512x64x64, .f32⟩
  | .hbm, ⟨34, _⟩ => ⟨S16x512x64x64, .f32⟩
  | .hbm, ⟨35, _⟩ => ⟨S_, .f32⟩
  | .hbm, ⟨36, _⟩ => ⟨S16x512x64, .f32⟩
  | .hbm, ⟨37, _⟩ => ⟨S16x512x64x1, .f32⟩
  | .hbm, ⟨38, _⟩ => ⟨S16x512x64x64, .f32⟩
  | .hbm, ⟨39, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  shapeCasts_S16x512x4096_S16x512x64x64 : S16x512x4096.ShapeCasts S16x512x64x64
  reducesTo_S16x512x64x64_S16x512x64_d3 : S16x512x64x64.ReducesTo [3] S16x512x64
  bcast_S_S16x512x64 : S_.BroadcastsInDim S16x512x64 (![] : Fin 0 → Fin S16x512x64.rank)
  bcast_S16x512x64_S16x512x64x1_0_1_2 : S16x512x64.BroadcastsInDim S16x512x64x1 (![0, 1, 2] : Fin 3 → Fin S16x512x64x1.rank)
  bcast_S16x512x64x1_S16x512x64x64_0_1_2_3 : S16x512x64x1.BroadcastsInDim S16x512x64x64 (![0, 1, 2, 3] : Fin 4 → Fin S16x512x64x64.rank)
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.Spec.lean ====
/-
  What the two programs compute, as one function of the two inputs on the extended reals.

  With q and kv the inputs read as [16, 512, 4096] arrays (the two trailing axes of extent 64 merged),
    energy[b, c, d] = Σ_n q[b, c, n] · kv[b, d, n],
    flipped[b, c, d] = (max_d' energy[b, c, d']) − energy[b, c, d],
    attn[b, c, ·]   = softmax of the row flipped[b, c, ·],
    out[b, c, n]    = Σ_d attn[b, c, d] · kv[b, d, n],
  and the result, out read as [16, 512, 64, 64], is softmaxed along its last axis.  A softmax of a row r subtracts the
  row's largest entry (a fold of max from minus infinity, guarded once more from below by minus infinity, as jax writes
  it), exponentiates, and divides by the sum of the exponentials.
-/
import Idealize.ShloMosaic.Lib.ValueIdx
import Idealize.ShloMosaic.PureOps.Ideal.Laws

noncomputable section

namespace Cert.ChanAttn

open Idealize.ShloMosaic Idealize.ShloMosaic.ValueIdx

/-- Minus infinity, as the word every maximum here starts from. -/
abbrev negInf : EReal := Ideal.ofBits .f32 0xFF800000#32

/-- The largest entry of a row: the fold of `max` from minus infinity. -/
def rowMax {n : ℕ} (r : Fin n → EReal) : EReal := (Finset.univ : Finset (Fin n)).fold max negInf r

/-- What a softmax subtracts from its row: the largest entry, guarded from below by minus infinity. -/
def shift {n : ℕ} (r : Fin n → EReal) : EReal := max negInf (rowMax r)

/-- The softmax of a row at position `k`. -/
def softRow {n : ℕ} (r : Fin n → EReal) (k : Fin n) : EReal :=
  Ideal.div (Ideal.exp (r k - shift r)) (∑ j : Fin n, Ideal.exp (r j - shift r))

abbrev S3 : Shape := ⟨3, ![16, 512, 4096]⟩
abbrev S4 : Shape := ⟨4, ![16, 512, 64, 64]⟩

/-- energy[b, c, d]: the inner product of row c of q with row d of kv, in batch b. -/
def energy (q kv : S3.Idx → EReal) (b : Fin 16) (c d : Fin 512) : EReal :=
  ∑ n : Fin 4096, q (ix3 b c n) * kv (ix3 b d n)

/-- The row's largest energy minus each energy. -/
def flipped (q kv : S3.Idx → EReal) (b : Fin 16) (c : Fin 512) : Fin 512 → EReal :=
  fun d => rowMax (energy q kv b c) - energy q kv b c d

/-- out[b, c, n]: the attention weights of row c applied to column n of kv. -/
def attnAt (q kv : S3.Idx → EReal) (b : Fin 16) (c : Fin 512) (n : Fin 4096) : EReal :=
  ∑ d : Fin 512, softRow (flipped q kv b c) d * kv (ix3 b d n)

/-- The attention output as an array. -/
def attnOut (q kv : S3.Idx → EReal) : S3.Idx → EReal := fun i =>
  attnAt q kv ⟨(i 0).val, (i 0).isLt⟩ ⟨(i 1).val, (i 1).isLt⟩ ⟨(i 2).val, (i 2).isLt⟩

theorem attnOut_ix3 (q kv : S3.Idx → EReal) (b : Fin 16) (c : Fin 512) (n : Fin 4096) :
    attnOut q kv (ix3 b c n) = attnAt q kv b c n := rfl

/-- The softmax along the last axis of a [16, 512, 64, 64] array, at (b, c, h, w). -/
def lastSoftAt (y : S4.Idx → EReal) (b : Fin 16) (c : Fin 512) (h w : Fin 64) : EReal :=
  softRow (fun w' : Fin 64 => y (ix4 b c h w')) w

/-- The same as an array. -/
def lastSoft (y : S4.Idx → EReal) : S4.Idx → EReal := fun i =>
  lastSoftAt y ⟨(i 0).val, (i 0).isLt⟩ ⟨(i 1).val, (i 1).isLt⟩ ⟨(i 2).val, (i 2).isLt⟩ ⟨(i 3).val, (i 3).isLt⟩

theorem lastSoft_ix4 (y : S4.Idx → EReal) (b : Fin 16) (c : Fin 512) (h w : Fin 64) :
    lastSoft y (ix4 b c h w) = lastSoftAt y b c h w := rfl

/-- The whole result from the two inputs: x1 supplies q, x0 supplies kv. -/
def result (h34 : S4.ShapeCasts S3) (h43 : S3.ShapeCasts S4) (x0 x1 : S4.Idx → EReal) : S4.Idx → EReal :=
  lastSoft (shapeCast S4 (attnOut (shapeCast S3 x1 h34) (shapeCast S3 x0 h34)) h43)

end Cert.ChanAttn

end
-- ==== Proof.LibKeepdims.lean ====
/-
  A row statistic kept as a column, and a column spread back over the rows, read at an entry; and a reduction along
  the last axis of a block read as a fold or a sum over that axis's coordinate.  Stated for any extents, at rank
  two (an [a, b] block reduced to [a]) and at rank four (an [m, a, b, c] block reduced to [m, a, b]).
-/
import Idealize.ShloMosaic.Lib.ValueIdx
import Idealize.ShloMosaic.Lib.ValueLayout
import Idealize.ShloMosaic.Lib.Pipeline.Value
import Idealize.ShloMosaic.PureOps.Ideal.Laws

noncomputable section

namespace Cert.Keepdims

open Idealize.ShloMosaic Idealize.ShloMosaic.ValueIdx

variable {α : Type}

/-! ## Rank two -/

/-- An `[a]` vector cast to the column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row value kept as a column and spread back reads, at `(p, c)`, row `p`'s value. -/
theorem spread_col_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- Row `p` with the reduced coordinate put back is `(p, k)`. -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The largest entry of row `p`, from minus infinity: the fold of `max` along the row. -/
theorem max_row_apply {a b : ℕ} (src : FVec Ideal ⟨2, ![a, b]⟩ .f32) (h : (⟨2, ![a, b]⟩ : Shape).Reduces [1] ⟨1, ![a]⟩)
    (hacc : (0xFF800000#32 : BitVec 32) = 0xFF800000#32) (p : Fin a) :
    multiReduction .maximumf [1] ⟨1, ![a]⟩ src 0xFF800000#32 h (.inl rfl) hacc (ix1 p)
      = (Finset.univ : Finset (Fin b)).fold max (Ideal.ofBits .f32 0xFF800000#32) fun k => src (ix2 p k) := by
  refine (Ideal.multiReduction_maximumf_single src _ h (.inl rfl) hacc (ix1 p)).trans ?_
  exact congrArg (fun f => Finset.fold max (Ideal.ofBits .f32 0xFF800000#32) f (Finset.univ : Finset (Fin b)))
    (funext fun k => congrArg src (lift_row h p k))

/-- The sum of row `p`. -/
theorem sum_row_apply {a b : ℕ} (src : FVec Ideal ⟨2, ![a, b]⟩ .f32) (h : (⟨2, ![a, b]⟩ : Shape).Reduces [1] ⟨1, ![a]⟩)
    (hacc : (0x00000000#32 : BitVec 32) = 0x00000000#32) (p : Fin a) :
    multiReduction .add [1] ⟨1, ![a]⟩ src 0x00000000#32 h (.inl rfl) hacc (ix1 p) = ∑ k : Fin b, src (ix2 p k) := by
  refine (Ideal.multiReduction_add_single src _ h (.inl rfl) hacc (ix1 p)).trans ?_
  exact Finset.sum_congr rfl fun k _ => congrArg src (lift_row h p k)

/-! ## Rank four -/

/-- An `[m, a, b]` array cast to `[m, a, b, 1]` reads, at `(k, i, j, u)`, entry `(k, i, j)`. -/
theorem shapeCast_abc_abc1_apply {m a b : ℕ} (x : (⟨3, ![m, a, b]⟩ : Shape).Idx → α)
    (h : (⟨3, ![m, a, b]⟩ : Shape).ShapeCasts ⟨4, ![m, a, b, 1]⟩) (k : Fin m) (i : Fin a) (j : Fin b) (u : Fin 1) :
    shapeCast ⟨4, ![m, a, b, 1]⟩ x h (ix4 k i j u) = x (ix3 k i j) :=
  shapeCast_apply x h _ _ (by
    have hu : u.val = 0 := by omega
    rw [Shape.rowMajor_val_four, Shape.rowMajor_val_three]
    show (k.val * a + i.val) * b + j.val = ((k.val * a + i.val) * b + j.val) * 1 + u.val
    rw [hu, Nat.mul_one, Nat.add_zero])

/-- An `[m, a, b, 1]` array spread over `[m, a, b, c]` reads, at `(k, i, j, l)`, its entry `(k, i, j, 0)`. -/
theorem broadcastTo_abc1_abcd_apply {m a b c : ℕ} (v : (⟨4, ![m, a, b, 1]⟩ : Shape).Idx → α)
    (h : (⟨4, ![m, a, b, 1]⟩ : Shape).Broadcasts ⟨4, ![m, a, b, c]⟩) (k : Fin m) (i : Fin a) (j : Fin b) (l : Fin c) :
    broadcastTo ⟨4, ![m, a, b, c]⟩ v h (ix4 k i j l) = v (ix4 k i j (0 : Fin 1)) := by
  refine broadcastTo_apply v h (ix4 k i j l) (ix4 k i j (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ =>
    show j.val = if b = 1 then 0 else j.val
    split
    · have := j.isLt; omega
    · rfl
  | ⟨3, _⟩ => rfl

/-- The two together: a value per `(k, i, j)` kept with a unit last axis and spread along it reads that value. -/
theorem spread_last_apply {m a b c : ℕ} (x : (⟨3, ![m, a, b]⟩ : Shape).Idx → α)
    (hc : (⟨3, ![m, a, b]⟩ : Shape).ShapeCasts ⟨4, ![m, a, b, 1]⟩) (hb : (⟨4, ![m, a, b, 1]⟩ : Shape).Broadcasts ⟨4, ![m, a, b, c]⟩)
    (k : Fin m) (i : Fin a) (j : Fin b) (l : Fin c) :
    broadcastTo ⟨4, ![m, a, b, c]⟩ (shapeCast ⟨4, ![m, a, b, 1]⟩ x hc) hb (ix4 k i j l) = x (ix3 k i j) :=
  (broadcastTo_abc1_abcd_apply _ hb k i j l).trans (shapeCast_abc_abc1_apply x hc k i j 0)

/-- `(k, i, j)` with the reduced last coordinate put back is `(k, i, j, l)`. -/
theorem lift_last {m a b c : ℕ} (h : (⟨4, ![m, a, b, c]⟩ : Shape).Reduces [3] ⟨3, ![m, a, b]⟩) (k : Fin m) (i : Fin a) (j : Fin b)
    (l : Fin ((⟨4, ![m, a, b, c]⟩ : Shape).size 3)) : h.lift (ix3 k i j) l = ix4 k i j (⟨l.val, l.isLt⟩ : Fin c) := by
  funext d; apply Fin.ext
  fin_cases d <;> rfl

/-- The largest entry along the last axis at `(k, i, j)`, from minus infinity. -/
theorem max_last_apply {m a b c : ℕ} (src : FVec Ideal ⟨4, ![m, a, b, c]⟩ .f32)
    (h : (⟨4, ![m, a, b, c]⟩ : Shape).Reduces [3] ⟨3, ![m, a, b]⟩) (hacc : (0xFF800000#32 : BitVec 32) = 0xFF800000#32)
    (k : Fin m) (i : Fin a) (j : Fin b) :
    multiReduction .maximumf [3] ⟨3, ![m, a, b]⟩ src 0xFF800000#32 h (.inl rfl) hacc (ix3 k i j)
      = (Finset.univ : Finset (Fin c)).fold max (Ideal.ofBits .f32 0xFF800000#32) fun l => src (ix4 k i j l) := by
  refine (Ideal.multiReduction_maximumf_single src _ h (.inl rfl) hacc (ix3 k i j)).trans ?_
  exact congrArg (fun f => Finset.fold max (Ideal.ofBits .f32 0xFF800000#32) f (Finset.univ : Finset (Fin c)))
    (funext fun l => congrArg src (lift_last h k i j l))

/-- The sum along the last axis at `(k, i, j)`. -/
theorem sum_last_apply {m a b c : ℕ} (src : FVec Ideal ⟨4, ![m, a, b, c]⟩ .f32)
    (h : (⟨4, ![m, a, b, c]⟩ : Shape).Reduces [3] ⟨3, ![m, a, b]⟩) (hacc : (0x00000000#32 : BitVec 32) = 0x00000000#32)
    (k : Fin m) (i : Fin a) (j : Fin b) :
    multiReduction .add [3] ⟨3, ![m, a, b]⟩ src 0x00000000#32 h (.inl rfl) hacc (ix3 k i j) = ∑ l : Fin c, src (ix4 k i j l) := by
  refine (Ideal.multiReduction_add_single src _ h (.inl rfl) hacc (ix3 k i j)).trans ?_
  exact Finset.sum_congr rfl fun l _ => congrArg src (lift_last h k i j l)

end Cert.Keepdims

end
-- ==== Proof.SoftmaxRead.lean ====
/-
  The softmax of the rows of a block as the vector unit computes it — the row's largest entry (a max-reduction from
  minus infinity, guarded once more by minus infinity) kept as a column and spread back, subtracted, exponentiated,
  the row sums kept as a column and spread back, divided — read at one entry: it is `softRow` of that row.  At rank two
  (rows of an [a, b] block) and at rank four (the last axis of an [m, a, b, c] block).  Also "largest minus each",
  the step before the inner softmax.
-/
import proofs.«143390_j35579509080688_1_alg».proof.Proof.Spec
import proofs.«143390_j35579509080688_1_alg».proof.Proof.LibKeepdims

noncomputable section

namespace Cert.ChanAttn

open Idealize.ShloMosaic Idealize.ShloMosaic.ValueIdx Cert.Keepdims

section Rank2

variable {a b : ℕ} (e : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩)
  (h1 : (0xFF800000#32 : BitVec 32) = 0xFF800000#32) (h0 : (0x00000000#32 : BitVec 32) = 0x00000000#32)

/-- Each row's largest entry, spread back over the row. -/
def rowMaxSpread : FVec Ideal ⟨2, ![a, b]⟩ .f32 :=
  broadcastTo ⟨2, ![a, b]⟩ (shapeCast ⟨2, ![a, 1]⟩ (multiReduction .maximumf [1] ⟨1, ![a]⟩ e 0xFF800000#32 hr (.inl rfl) h1) hc) hb

theorem rowMaxSpread_apply (p : Fin a) (d : Fin b) : rowMaxSpread e hr hc hb h1 (ix2 p d) = rowMax fun k => e (ix2 p k) := by
  unfold rowMaxSpread
  rw [spread_col_apply, max_row_apply]
  rfl

/-- The row's largest entry minus each entry. -/
def flipRows : FVec Ideal ⟨2, ![a, b]⟩ .f32 := subf (rowMaxSpread e hr hc hb h1) e

theorem flipRows_apply (p : Fin a) (d : Fin b) :
    flipRows e hr hc hb h1 (ix2 p d) = (rowMax fun k => e (ix2 p k)) - e (ix2 p d) := by
  show rowMaxSpread e hr hc hb h1 (ix2 p d) - e (ix2 p d) = _
  rw [rowMaxSpread_apply]

/-- What the softmax subtracts, spread over the row. -/
def shiftSpread : FVec Ideal ⟨2, ![a, b]⟩ .f32 :=
  broadcastTo ⟨2, ![a, b]⟩ (shapeCast ⟨2, ![a, 1]⟩ (maximumf (broadcast ⟨1, ![a]⟩ (Scalar.ofBits .f32 0xFF800000#32))
    (multiReduction .maximumf [1] ⟨1, ![a]⟩ e 0xFF800000#32 hr (.inl rfl) h1)) hc) hb

theorem shiftSpread_apply (p : Fin a) (d : Fin b) : shiftSpread e hr hc hb h1 (ix2 p d) = shift fun k => e (ix2 p k) := by
  unfold shiftSpread
  rw [spread_col_apply, maximumf_apply, broadcast_apply, max_row_apply]
  rfl

/-- The exponentials of the shifted rows. -/
def expShifted : FVec Ideal ⟨2, ![a, b]⟩ .f32 := exp (subf e (shiftSpread e hr hc hb h1))

theorem expShifted_apply (p : Fin a) (d : Fin b) :
    expShifted e hr hc hb h1 (ix2 p d) = Ideal.exp (e (ix2 p d) - shift fun k => e (ix2 p k)) := by
  show Ideal.exp (e (ix2 p d) - shiftSpread e hr hc hb h1 (ix2 p d)) = _
  rw [shiftSpread_apply]

/-- The softmax of every row. -/
def softRows : FVec Ideal ⟨2, ![a, b]⟩ .f32 :=
  divf (expShifted e hr hc hb h1) (broadcastTo ⟨2, ![a, b]⟩ (shapeCast ⟨2, ![a, 1]⟩
    (multiReduction .add [1] ⟨1, ![a]⟩ (expShifted e hr hc hb h1) 0x00000000#32 hr (.inl rfl) h0) hc) hb)

theorem softRows_apply (p : Fin a) (d : Fin b) :
    softRows e hr hc hb h1 h0 (ix2 p d) = softRow (fun k => e (ix2 p k)) d := by
  unfold softRows
  rw [divf_apply, spread_col_apply, sum_row_apply, expShifted_apply]
  unfold softRow
  exact congrArg (Ideal.div _) (Finset.sum_congr rfl fun k _ => expShifted_apply e hr hc hb h1 p k)

end Rank2

section Rank4

variable {m a b c : ℕ} (e : FVec Ideal ⟨4, ![m, a, b, c]⟩ .f32)
  (hr : (⟨4, ![m, a, b, c]⟩ : Shape).Reduces [3] ⟨3, ![m, a, b]⟩) (hc : (⟨3, ![m, a, b]⟩ : Shape).ShapeCasts ⟨4, ![m, a, b, 1]⟩)
  (hb : (⟨4, ![m, a, b, 1]⟩ : Shape).Broadcasts ⟨4, ![m, a, b, c]⟩)
  (h1 : (0xFF800000#32 : BitVec 32) = 0xFF800000#32) (h0 : (0x00000000#32 : BitVec 32) = 0x00000000#32)

/-- What the softmax along the last axis subtracts, spread along that axis. -/
def shiftSpread4 : FVec Ideal ⟨4, ![m, a, b, c]⟩ .f32 :=
  broadcastTo ⟨4, ![m, a, b, c]⟩ (shapeCast ⟨4, ![m, a, b, 1]⟩ (maximumf (broadcast ⟨3, ![m, a, b]⟩ (Scalar.ofBits .f32 0xFF800000#32))
    (multiReduction .maximumf [3] ⟨3, ![m, a, b]⟩ e 0xFF800000#32 hr (.inl rfl) h1)) hc) hb

theorem shiftSpread4_apply (k : Fin m) (i : Fin a) (j : Fin b) (l : Fin c) :
    shiftSpread4 e hr hc hb h1 (ix4 k i j l) = shift fun l' => e (ix4 k i j l') := by
  unfold shiftSpread4
  rw [spread_last_apply, maximumf_apply, broadcast_apply, max_last_apply]
  rfl

/-- The exponentials of the shifted entries. -/
def expShifted4 : FVec Ideal ⟨4, ![m, a, b, c]⟩ .f32 := exp (subf e (shiftSpread4 e hr hc hb h1))

theorem expShifted4_apply (k : Fin m) (i : Fin a) (j : Fin b) (l : Fin c) :
    expShifted4 e hr hc hb h1 (ix4 k i j l) = Ideal.exp (e (ix4 k i j l) - shift fun l' => e (ix4 k i j l')) := by
  show Ideal.exp (e (ix4 k i j l) - shiftSpread4 e hr hc hb h1 (ix4 k i j l)) = _
  rw [shiftSpread4_apply]

/-- The softmax along the last axis. -/
def softLast : FVec Ideal ⟨4, ![m, a, b, c]⟩ .f32 :=
  divf (expShifted4 e hr hc hb h1) (broadcastTo ⟨4, ![m, a, b, c]⟩ (shapeCast ⟨4, ![m, a, b, 1]⟩
    (multiReduction .add [3] ⟨3, ![m, a, b]⟩ (expShifted4 e hr hc hb h1) 0x00000000#32 hr (.inl rfl) h0) hc) hb)

theorem softLast_apply (k : Fin m) (i : Fin a) (j : Fin b) (l : Fin c) :
    softLast e hr hc hb h1 h0 (ix4 k i j l) = softRow (fun l' => e (ix4 k i j l')) l := by
  unfold softLast
  rw [divf_apply, spread_last_apply, sum_last_apply, expShifted4_apply]
  unfold softRow
  exact congrArg (Ideal.div _) (Finset.sum_congr rfl fun l' _ => expShifted4_apply e hr hc hb h1 k i j l')

end Rank4

end Cert.ChanAttn

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.LibMatmulNT.lean ====
/-
  A matrix product that contracts the LAST axis of both operands, rows × contraction by columns × contraction, with
  no batch axis, read at one entry on the extended reals: into a zero accumulator it is the plain sum over the
  contraction coordinate of the products of the two operands' entries.  Stated once for any extents and any
  dimension-number record of that pattern.
-/
import Idealize.ShloMosaic.Lib.ValueIdx
import Idealize.ShloMosaic.PureOps.Ideal.Laws

noncomputable section

namespace Cert.MatmulNT

open Idealize.ShloMosaic Idealize.ShloMosaic.ValueIdx

variable {M K N : ℕ}

/-- The dimension numbers contract the columns of both operands and keep the left rows and the right rows, with no
    batch axis. -/
structure IsNT (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

/-- The sum over the one-axis contraction index is the sum over its coordinate, the left operand read at
    (row, l) and the right at (column, l). -/
theorem nt_sum {φ₁ φ₂ : FTy} (D : DotDims ⟨2, ![M, K]⟩ ⟨2, ![N, K]⟩ ⟨2, ![M, N]⟩) (hD : IsNT D)
    (A : FVec Ideal ⟨2, ![M, K]⟩ φ₁) (B : FVec Ideal ⟨2, ![N, K]⟩ φ₂) (p : Fin M) (q : Fin N) :
    ∑ k : D.contr.Idx, A (D.lhsIdx (ix2 p q) k) * B (D.rhsIdx (ix2 p q) k) = ∑ l : Fin K, A (ix2 p l) * B (ix2 q l) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![N, K]⟩ ⟨2, ![M, N]⟩ := ⟨[1], [1], [0], [0], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (i 1).val := by
    intro i k
    unfold DotDims.rhsIdx
    rw [dif_neg (show ¬(0 : Fin 2) ∈ ([] : List (Fin 2)) by decide), dif_pos (show (0 : Fin 2) ∈ ([0] : List (Fin 2)) by decide)]
    rfl
  have r1 : ∀ (i : (⟨2, ![M, N]⟩ : Shape).Idx) (k : D.contr.Idx), (D.rhsIdx i k 1).val = (k ⟨0, Nat.one_pos⟩).val :=
    fun i k => D.rhsIdx_val_of_single rfl i k
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 q l := funext fun a => Fin.ext (by
    match a with
    | ⟨0, _⟩ => exact r0 _ _
    | ⟨1, _⟩ => exact (r1 _ _).trans hk)
  rw [el, er]

/-- The vector unit's product into the zero accumulator, at entry (p, q). -/
theorem matmul_nt_apply {φ₁ φ₂ : FTy} (D : DotDims ⟨2, ![M, K]⟩ ⟨2, ![N, K]⟩ ⟨2, ![M, N]⟩) (hD : IsNT D)
    (prec : Option ContractPrecision) (A : FVec Ideal ⟨2, ![M, K]⟩ φ₁) (B : FVec Ideal ⟨2, ![N, K]⟩ φ₂) (p : Fin M) (q : Fin N) :
    matmul D prec A B (constant (F := Ideal) ⟨2, ![M, N]⟩ .f32 0x00000000#32) (ix2 p q) = ∑ l : Fin K, A (ix2 p l) * B (ix2 q l) := by
  simp only [matmul]
  rw [Ideal.matmul_constant_zero_apply]
  exact nt_sum D hD A B p q

end Cert.MatmulNT

end
-- ==== Proof.AttentionValue.lean ====
/-
  The first kernel's output array.  The grid is 16 × 2: point t is batch entry t / 2 and row tile t % 2.  The point
  reads rows [256·(t%2), 256·(t%2)+256) of q in that batch entry and all 512 rows of kv, and writes the same rows of
  the output.  The body's value at (0, p, n) is
    Σ_d softmax_d( max_d' E[p, d'] − E[p, d] ) · kv[d, n],   E[p, d] = Σ_n' q[p, n'] · kv[d, n'],
  over the loaded blocks (the changes of float format are the identity on the extended reals).  So each written block
  is the matching block of `attnOut` of the two input arrays, the 32 blocks tile the output, and the output array ends
  holding `attnOut` of the input arrays as the region finds them.
-/
import proofs.«143390_j35579509080688_1_alg».proof.Proof.Gen.KernelIdeal.Frame
import proofs.«143390_j35579509080688_1_alg».proof.Proof.SoftmaxRead
import proofs.«143390_j35579509080688_1_alg».proof.Proof.LibMatmulPlain
import proofs.«143390_j35579509080688_1_alg».proof.Proof.LibMatmulNT

set_option maxRecDepth 16384

noncomputable section

namespace Cert.KernelIdeal.Attention

open Cert.KernelIdeal Cert.KernelIdeal.Gen Cert.ChanAttn
open Idealize.ShloMosaic Idealize.ShloMosaic.TcCoe Idealize.ShloMosaic.ValueIdx
open Idealize.ShloMosaic.Pipeline (Dat)

/-! ## The body's value, stage by stage -/

/-- The loaded q rows as a matrix. -/
def qBlk (x0 : Vec Ideal S1x256x4096 .f32) : FVec Ideal S256x4096 .bf16 :=
  truncf .bf16 (shapeCast S256x4096 x0 shapeCasts_S1x256x4096_S256x4096) bitsLt_bf16_f32

theorem qBlk_apply (x0 : Vec Ideal S1x256x4096 .f32) (p : Fin 256) (n : Fin 4096) : qBlk x0 (ix2 p n) = x0 (ix3 (0 : Fin 1) p n) := by
  unfold qBlk
  rw [truncf_apply, shapeCast_1ab_ab_apply]

/-- The loaded kv rows as a matrix. -/
def kvBlk (x1 : Vec Ideal S1x512x4096 .f32) : FVec Ideal S512x4096 .bf16 :=
  truncf .bf16 (shapeCast S512x4096 x1 shapeCasts_S1x512x4096_S512x4096) bitsLt_bf16_f32

theorem kvBlk_apply (x1 : Vec Ideal S1x512x4096 .f32) (d : Fin 512) (n : Fin 4096) : kvBlk x1 (ix2 d n) = x1 (ix3 (0 : Fin 1) d n) := by
  unfold kvBlk
  rw [truncf_apply, shapeCast_1ab_ab_apply]

/-- The energies of the loaded rows: q times kv transposed. -/
def energyBlk (x0 : Vec Ideal S1x256x4096 .f32) (x1 : Vec Ideal S1x512x4096 .f32) : FVec Ideal S256x512 .f32 :=
  matmul dot_S256x4096_S512x4096_S256x512_1_1_0_0_n_n none (qBlk x0) (kvBlk x1) (constant S256x512 .f32 0x00000000#32)

theorem energyBlk_apply (x0 : Vec Ideal S1x256x4096 .f32) (x1 : Vec Ideal S1x512x4096 .f32) (p : Fin 256) (d : Fin 512) :
    energyBlk x0 x1 (ix2 p d) = ∑ n : Fin 4096, x0 (ix3 (0 : Fin 1) p n) * x1 (ix3 (0 : Fin 1) d n) := by
  unfold energyBlk
  rw [Cert.MatmulNT.matmul_nt_apply _ ⟨rfl, rfl, rfl, rfl, rfl, rfl⟩]
  exact Finset.sum_congr rfl fun n _ => by rw [qBlk_apply, kvBlk_apply]

/-- The attention weights of the loaded rows. -/
def attnBlk (x0 : Vec Ideal S1x256x4096 .f32) (x1 : Vec Ideal S1x512x4096 .f32) : FVec Ideal S256x512 .f32 :=
  softRows (flipRows (energyBlk x0 x1) reduces_S256x512_S256 shapeCasts_S256_S256x1 broadcasts_S256x1_S256x512 rfl)
    reduces_S256x512_S256 shapeCasts_S256_S256x1 broadcasts_S256x1_S256x512 rfl rfl

theorem attnBlk_apply (x0 : Vec Ideal S1x256x4096 .f32) (x1 : Vec Ideal S1x512x4096 .f32) (p : Fin 256) (d : Fin 512) :
    attnBlk x0 x1 (ix2 p d)
      = softRow (fun d' : Fin 512 => (rowMax fun k : Fin 512 => ∑ n : Fin 4096, x0 (ix3 (0 : Fin 1) p n) * x1 (ix3 (0 : Fin 1) k n))
          - ∑ n : Fin 4096, x0 (ix3 (0 : Fin 1) p n) * x1 (ix3 (0 : Fin 1) d' n)) d := by
  unfold attnBlk
  rw [softRows_apply]
  refine congrArg (fun r => softRow r d) (funext fun d' => ?_)
  rw [flipRows_apply, energyBlk_apply]
  exact congrArg (fun r => rowMax r - _) (funext fun k => energyBlk_apply x0 x1 p k)

/-- The body's value is those stages composed: the weights times kv, stored in bf16 under a leading unit axis. -/
theorem pay_eq (x0 : Vec Ideal S1x256x4096 .f32) (x1 : Vec Ideal S1x512x4096 .f32) :
    k0_pay1 (F := Ideal) x0 x1
      = shapeCast S1x256x4096 (truncf .bf16 (matmul dot_S256x512_S512x4096_S256x4096_1_0_0_1_n_n none
          (truncf .bf16 (attnBlk x0 x1) bitsLt_bf16_f32) (kvBlk x1) (constant S256x4096 .f32 0x00000000#32)) bitsLt_bf16_f32)
          shapeCasts_S256x4096_S1x256x4096 := rfl

/-- At (u, p, n): the weights of row p applied to column n of the loaded kv. -/
theorem pay_apply (x0 : Vec Ideal S1x256x4096 .f32) (x1 : Vec Ideal S1x512x4096 .f32) (u : Fin 1) (p : Fin 256) (n : Fin 4096) :
    k0_pay1 (F := Ideal) x0 x1 (ix3 u p n)
      = ∑ d : Fin 512, softRow (fun d' : Fin 512 => (rowMax fun k : Fin 512 => ∑ n' : Fin 4096, x0 (ix3 (0 : Fin 1) p n') * x1 (ix3 (0 : Fin 1) k n'))
          - ∑ n' : Fin 4096, x0 (ix3 (0 : Fin 1) p n') * x1 (ix3 (0 : Fin 1) d' n')) d * x1 (ix3 (0 : Fin 1) d n) := by
  rw [pay_eq, shapeCast_ab_1ab_apply, truncf_apply, Cert.Gcn.matmul_plain_apply _ ⟨rfl, rfl, rfl, rfl, rfl, rfl⟩]
  refine Finset.sum_congr rfl fun d _ => ?_
  rw [truncf_apply, attnBlk_apply, kvBlk_apply]

/-- A point's value against the whole input arrays: if the loaded blocks are rows [256·ci, 256·ci + 256) of `Q` and
    all rows of `KV` in batch entry `b`, the body's value at `j` is `attnOut Q KV` at `(b, 256·ci + j 1, j 2)`. -/
theorem point_eq (Q KV : S16x512x4096.Idx → EReal) (b : Fin 16) (ci : Fin 2)
    (qb : S1x256x4096.Idx → EReal) (kb : S1x512x4096.Idx → EReal)
    (hq : ∀ (u : Fin 1) (p : Fin 256) (n : Fin 4096), qb (ix3 u p n) = Q (ix3 b (⟨ci.val * 256 + p.val, by omega⟩ : Fin 512) n))
    (hk : ∀ (u : Fin 1) (d : Fin 512) (n : Fin 4096), kb (ix3 u d n) = KV (ix3 b d n)) (j : S1x256x4096.Idx) :
    k0_pay1 (F := Ideal) qb kb j
      = attnOut Q KV (ix3 b (⟨ci.val * 256 + (j 1).val, by have := (j 1).isLt; have : (j 1).val < 256 := this; omega⟩ : Fin 512) (⟨(j 2).val, (j 2).isLt⟩ : Fin 4096)) := by
  obtain ⟨u, p, n, rfl⟩ : ∃ (u : Fin 1) (p : Fin 256) (n : Fin 4096), j = ix3 u p n := ⟨j 0, j 1, j 2, eq_ix3 j⟩
  rw [pay_apply]
  simp only [hq, hk]
  rfl

/-! ## The blocks -/

theorem hz : (![0, 0, 0] : Fin 3 → Nat) = fun _ => 0 := funext fun a => by fin_cases a <;> rfl

/-- The printed index maps over the grid: at point t the q and output windows are at block (t/2, t%2, 0), the kv
    window at block (t/2, 0, 0). -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

theorem t_lt (t : Fin cfg0.N) : t.val < 32 := t.isLt

/-- Where entry j of point t's q block sits in the q array. -/
theorem emb_q (t : Fin cfg0.N) (j : S1x256x4096.Idx) :
    ((cfg0.win 0).blk t).view.emb j
      = ix3 (⟨t.val / 2, by have := t_lt t; omega⟩ : Fin 16)
          (⟨t.val % 2 * 256 + (j 1).val, by have h : (j 1).val < 256 := (j 1).isLt; omega⟩ : Fin 512) (⟨(j 2).val, (j 2).isLt⟩ : Fin 4096) := by
  obtain ⟨e0, e1, e2, -, -, -, -, -, -⟩ := idx_facts t
  funext a; apply Fin.ext
  match a with
  | ⟨0, _⟩ => show win0_0.index t (0 : Fin 3) * 1 + 1 * (j 0).val = t.val / 2; have hj : (j 0).val < 1 := (j 0).isLt; omega
  | ⟨1, _⟩ => show win0_0.index t (1 : Fin 3) * 256 + 1 * (j 1).val = t.val % 2 * 256 + (j 1).val; omega
  | ⟨2, _⟩ => show win0_0.index t (2 : Fin 3) * 4096 + 1 * (j 2).val = (j 2).val; omega

/-- Where entry j of point t's kv block sits in the kv array. -/
theorem emb_kv (t : Fin cfg0.N) (j : S1x512x4096.Idx) :
    ((cfg0.win 1).blk t).view.emb j
      = ix3 (⟨t.val / 2, by have := t_lt t; omega⟩ : Fin 16) (⟨(j 1).val, (j 1).isLt⟩ : Fin 512) (⟨(j 2).val, (j 2).isLt⟩ : Fin 4096) := by
  obtain ⟨-, -, -, e0, e1, e2, -, -, -⟩ := idx_facts t
  funext a; apply Fin.ext
  match a with
  | ⟨0, _⟩ => show win0_1.index t (0 : Fin 3) * 1 + 1 * (j 0).val = t.val / 2; have hj : (j 0).val < 1 := (j 0).isLt; omega
  | ⟨1, _⟩ => show win0_1.index t (1 : Fin 3) * 512 + 1 * (j 1).val = (j 1).val; omega
  | ⟨2, _⟩ => show win0_1.index t (2 : Fin 3) * 4096 + 1 * (j 2).val = (j 2).val; omega

/-- Where entry j of point t's output block sits in the output array. -/
theorem emb_out (t : Fin cfg0.N) (j : S1x256x4096.Idx) :
    ((cfg0.win 2).blk t).view.emb j
      = ix3 (⟨t.val / 2, by have := t_lt t; omega⟩ : Fin 16)
          (⟨t.val % 2 * 256 + (j 1).val, by have h : (j 1).val < 256 := (j 1).isLt; omega⟩ : Fin 512) (⟨(j 2).val, (j 2).isLt⟩ : Fin 4096) := by
  obtain ⟨-, -, -, -, -, -, e0, e1, e2⟩ := idx_facts t
  funext a; apply Fin.ext
  match a with
  | ⟨0, _⟩ => show win0_2.index t (0 : Fin 3) * 1 + 1 * (j 0).val = t.val / 2; have hj : (j 0).val < 1 := (j 0).isLt; omega
  | ⟨1, _⟩ => show win0_2.index t (1 : Fin 3) * 256 + 1 * (j 1).val = t.val % 2 * 256 + (j 1).val; omega
  | ⟨2, _⟩ => show win0_2.index t (2 : Fin 3) * 4096 + 1 * (j 2).val = (j 2).val; omega

variable (V : (c : Dev nD) → (b : Ref sig .tc) → Buf (Elt Ideal) ((c : Thread nD τ).loc b))

/-- The region's two input arrays as it finds them. -/
abbrev qarr (c : Dev nD) : S16x512x4096.Idx → EReal := V c main_v0
abbrev kvarr (c : Dev nD) : S16x512x4096.Idx → EReal := V c main_v1

/-- What point t writes back is block t of `attnOut` of the input arrays. -/
theorem flushed_eq (c : Dev nD) (t : Fin cfg0.N) :
    (dat0 V c).flushed 2 t = ((cfg0.win 2).blk t).view.read (Elt Ideal) (attnOut (qarr V c) (kvarr V c)) := by
  show (cfg0.win 2).cut (grid0.coords t) ((dat0 V c).after 2 t) = _
  rw [after0_2]
  unfold out0_2
  rw [View.canon_unit_zero hz]
  simp only [View.ld_unit_zero (S := S1x256x4096) hz, View.ld_unit_zero (S := S1x512x4096) hz]
  funext j
  show k0_pay1 (F := Ideal) (iblk0 V c 0 t) (iblk0 V c 1 t) j = attnOut (qarr V c) (kvarr V c) (((cfg0.win 2).blk t).view.emb j)
  rw [emb_out t j]
  refine point_eq (qarr V c) (kvarr V c) ⟨t.val / 2, by have := t_lt t; omega⟩ ⟨t.val % 2, by omega⟩
    (iblk0 V c 0 t) (iblk0 V c 1 t) (fun u p n => ?_) (fun u d n => ?_) j
  · show V c main_v0 (((cfg0.win 0).blk t).view.emb (ix3 u p n)) = V c main_v0 _
    rw [emb_q t (ix3 u p n)]
  · show V c main_v1 (((cfg0.win 1).blk t).view.emb (ix3 u d n)) = V c main_v1 _
    rw [emb_kv t (ix3 u d n)]

/-- An index of the output array is in point t's block iff each coordinate is in the block's range. -/
theorem mem_blk (t : Fin cfg0.N) (i : S16x512x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v2).slice (win0_2.rect t)).set ↔ _
  rw [View.set_slice_whole, Rect.mem_set_unit]
  exact Iff.rfl

/-- Every index of the output array is in the block of the point its batch coordinate and row tile name. -/
theorem cover (i : S16x512x4096.Idx) : ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 4096 := (i 2).isLt
  have ht : (i 0).val * 2 + (i 1).val / 256 < 32 := by omega
  refine ⟨⟨(i 0).val * 2 + (i 1).val / 256, ht⟩, flush0_2 _, ?_⟩
  rw [mem_blk]
  obtain ⟨-, -, -, -, -, -, e0, e1, e2⟩ := idx_facts ⟨(i 0).val * 2 + (i 1).val / 256, ht⟩
  have e0' : win0_2.index ⟨(i 0).val * 2 + (i 1).val / 256, ht⟩ (0 : Fin 3) = ((i 0).val * 2 + (i 1).val / 256) / 2 := e0
  have e1' : win0_2.index ⟨(i 0).val * 2 + (i 1).val / 256, ht⟩ (1 : Fin 3) = ((i 0).val * 2 + (i 1).val / 256) % 2 := e1
  intro a
  match a with
  | ⟨0, _⟩ => show win0_2.index ⟨(i 0).val * 2 + (i 1).val / 256, ht⟩ (0 : Fin 3) * 1 ≤ (i 0).val ∧ (i 0).val < win0_2.index ⟨(i 0).val * 2 + (i 1).val / 256, ht⟩ (0 : Fin 3) * 1 + 1; omega
  | ⟨1, _⟩ => show win0_2.index ⟨(i 0).val * 2 + (i 1).val / 256, ht⟩ (1 : Fin 3) * 256 ≤ (i 1).val ∧ (i 1).val < win0_2.index ⟨(i 0).val * 2 + (i 1).val / 256, ht⟩ (1 : Fin 3) * 256 + 256; omega
  | ⟨2, _⟩ => show win0_2.index ⟨(i 0).val * 2 + (i 1).val / 256, ht⟩ (2 : Fin 3) * 4096 ≤ (i 2).val ∧ (i 2).val < win0_2.index ⟨(i 0).val * 2 + (i 1).val / 256, ht⟩ (2 : Fin 3) * 4096 + 4096; omega

/-- The output array after the region: `attnOut` of the two input arrays as the region finds them. -/
theorem final (c : Dev nD) : (dat0 V c).arrAt 2 cfg0.N = attnOut (qarr V c) (kvarr V c) :=
  (dat0 V c).arrAt_eq_of_cover 2 (attnOut (qarr V c) (kvarr V c)) (fun t _ => flushed_eq V c t) cover

end Cert.KernelIdeal.Attention

end
-- ==== Proof.LastSoftmaxValue.lean ====
/-
  The second kernel's output array.  The grid has one point per batch entry; point t reads block (t, ·, ·, ·) of its
  input and writes the same block of its output.  The body's value at (0, c, h, w) is the softmax, along w, of the
  input block's line (0, c, h, ·).  So each written block is the matching block of `lastSoft` of the input array, the
  sixteen blocks tile the output, and the output array ends holding `lastSoft` of the input array as the region
  finds it.
-/
import proofs.«143390_j35579509080688_1_alg».proof.Proof.Gen.KernelIdeal.Frame
import proofs.«143390_j35579509080688_1_alg».proof.Proof.SoftmaxRead

set_option maxRecDepth 16384

noncomputable section

namespace Cert.KernelIdeal.LastSoftmax

open Cert.KernelIdeal Cert.KernelIdeal.Gen Cert.ChanAttn
open Idealize.ShloMosaic Idealize.ShloMosaic.TcCoe Idealize.ShloMosaic.ValueIdx
open Idealize.ShloMosaic.Pipeline (Dat)

/-! ## The body's value -/

/-- The body's value is the vector unit's softmax along the last axis of the loaded block (read in f32). -/
theorem pay_eq (x : Vec Ideal S1x512x64x64 .bf16) :
    k1_pay1 (F := Ideal) x
      = softLast (extf .f32 (shapeCast S1x512x64x64 x shapeCasts_S1x512x64x64_S1x512x64x64) bitsLt_bf16_f32)
          reduces_S1x512x64x64_S1x512x64 shapeCasts_S1x512x64_S1x512x64x1 broadcasts_S1x512x64x1_S1x512x64x64 rfl rfl := rfl

/-- At (u, c, h, w) it is the softmax of the block's line (u, c, h, ·) at w. -/
theorem pay_apply (x : Vec Ideal S1x512x64x64 .bf16) (u : Fin 1) (c : Fin 512) (h w : Fin 64) :
    k1_pay1 (F := Ideal) x (ix4 u c h w) = softRow (fun w' => x (ix4 u c h w')) w := by
  rw [pay_eq, softLast_apply]
  refine congrArg (fun r => softRow r w) (funext fun w' => ?_)
  rw [extf_apply, shapeCast_self]

/-- A point's value against the whole input array `A`: if the loaded block is block `t` of `A`, the body's value
    at `j` is `lastSoft A` at `(t, j 1, j 2, j 3)`. -/
theorem point_eq (A : S16x512x64x64.Idx → EReal) (t : Fin 16) (blk : S1x512x64x64.Idx → EReal)
    (hblk : ∀ (u : Fin 1) (c : Fin 512) (h w : Fin 64), blk (ix4 u c h w) = A (ix4 t c h w)) (j : S1x512x64x64.Idx) :
    k1_pay1 (F := Ideal) blk j
      = lastSoft A (ix4 t (⟨(j 1).val, (j 1).isLt⟩ : Fin 512) (⟨(j 2).val, (j 2).isLt⟩ : Fin 64) (⟨(j 3).val, (j 3).isLt⟩ : Fin 64)) := by
  obtain ⟨u, c, h, w, rfl⟩ : ∃ (u : Fin 1) (c : Fin 512) (h w : Fin 64), j = ix4 u c h w := ⟨j 0, j 1, j 2, j 3, eq_ix4 j⟩
  rw [pay_apply]
  show _ = lastSoftAt A t c h w
  unfold lastSoftAt
  exact congrArg (fun r => softRow r w) (funext fun w' => hblk u c h w')

/-! ## The blocks -/

theorem hz : (![0, 0, 0, 0] : Fin 4 → Nat) = fun _ => 0 := funext fun a => by fin_cases a <;> rfl

/-- The printed index maps over the grid: both windows' block index at point t is (t, 0, 0, 0). -/
theorem idx_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)

/-- Where entry j of point t's input block sits in the input array. -/
theorem emb_in (t : Fin cfg1.N) (j : S1x512x64x64.Idx) :
    ((cfg1.win 0).blk t).view.emb j
      = ix4 (⟨t.val, t.isLt⟩ : Fin 16) (⟨(j 1).val, (j 1).isLt⟩ : Fin 512) (⟨(j 2).val, (j 2).isLt⟩ : Fin 64) (⟨(j 3).val, (j 3).isLt⟩ : Fin 64) := by
  obtain ⟨e0, e1, e2, e3, -, -, -, -⟩ := idx_facts t
  funext a; apply Fin.ext
  match a with
  | ⟨0, _⟩ => show win1_0.index t (0 : Fin 4) * 1 + 1 * (j 0).val = t.val; have hj : (j 0).val < 1 := (j 0).isLt; omega
  | ⟨1, _⟩ => show win1_0.index t (1 : Fin 4) * 512 + 1 * (j 1).val = (j 1).val; omega
  | ⟨2, _⟩ => show win1_0.index t (2 : Fin 4) * 64 + 1 * (j 2).val = (j 2).val; omega
  | ⟨3, _⟩ => show win1_0.index t (3 : Fin 4) * 64 + 1 * (j 3).val = (j 3).val; omega

/-- Where entry j of point t's output block sits in the output array. -/
theorem emb_out (t : Fin cfg1.N) (j : S1x512x64x64.Idx) :
    ((cfg1.win 1).blk t).view.emb j
      = ix4 (⟨t.val, t.isLt⟩ : Fin 16) (⟨(j 1).val, (j 1).isLt⟩ : Fin 512) (⟨(j 2).val, (j 2).isLt⟩ : Fin 64) (⟨(j 3).val, (j 3).isLt⟩ : Fin 64) := by
  obtain ⟨-, -, -, -, e0, e1, e2, e3⟩ := idx_facts t
  funext a; apply Fin.ext
  match a with
  | ⟨0, _⟩ => show win1_1.index t (0 : Fin 4) * 1 + 1 * (j 0).val = t.val; have hj : (j 0).val < 1 := (j 0).isLt; omega
  | ⟨1, _⟩ => show win1_1.index t (1 : Fin 4) * 512 + 1 * (j 1).val = (j 1).val; omega
  | ⟨2, _⟩ => show win1_1.index t (2 : Fin 4) * 64 + 1 * (j 2).val = (j 2).val; omega
  | ⟨3, _⟩ => show win1_1.index t (3 : Fin 4) * 64 + 1 * (j 3).val = (j 3).val; omega

variable (V : (c : Dev nD) → (b : Ref sig .tc) → Buf (Elt Ideal) ((c : Thread nD τ).loc b))

/-- The region's input array as it finds it. -/
abbrev yarr (c : Dev nD) : S16x512x64x64.Idx → EReal := V c main_v3

/-- What point t writes back is block t of `lastSoft` of the input array. -/
theorem flushed_eq (c : Dev nD) (t : Fin cfg1.N) :
    (dat1 V c).flushed 1 t = ((cfg1.win 1).blk t).view.read (Elt Ideal) (lastSoft (yarr V c)) := by
  show (cfg1.win 1).cut (grid1.coords t) ((dat1 V c).after 1 t) = _
  rw [after1_1]
  unfold out1_1
  rw [View.canon_unit_zero hz]
  simp only [View.ld_unit_zero (S := S1x512x64x64) hz]
  funext j
  show k1_pay1 (F := Ideal) (iblk1 V c 0 t) j = lastSoft (yarr V c) (((cfg1.win 1).blk t).view.emb j)
  rw [emb_out t j]
  refine point_eq (yarr V c) ⟨t.val, t.isLt⟩ (iblk1 V c 0 t) (fun u cc h w => ?_) j
  show V c main_v3 (((cfg1.win 0).blk t).view.emb (ix4 u cc h w)) = V c main_v3 (ix4 ⟨t.val, t.isLt⟩ cc h w)
  rw [emb_in t (ix4 u cc h w)]

/-- An index of the output array is in point t's block iff each coordinate is in the block's range. -/
theorem mem_blk (t : Fin cfg1.N) (i : S16x512x64x64.Idx) :
    i ∈ ((cfg1.win 1).blk t).view.set ↔ ∀ a : Fin 4, win1_1.index t a * S1x512x64x64.size a ≤ (i a).val ∧ (i a).val < win1_1.index t a * S1x512x64x64.size a + S1x512x64x64.size a := by
  show i ∈ ((View.whole main_v4).slice (win1_1.rect t)).set ↔ _
  rw [View.set_slice_whole, Rect.mem_set_unit]
  exact Iff.rfl

/-- Every index of the output array is in the block of the point its batch coordinate names. -/
theorem cover (i : S16x512x64x64.Idx) : ∃ t : Fin cfg1.N, (cfg1.win 1).flush t = true ∧ i ∈ ((cfg1.win 1).blk t).view.set := by
  have h0 : (i 0).val < 16 := (i 0).isLt
  have h1 : (i 1).val < 512 := (i 1).isLt
  have h2 : (i 2).val < 64 := (i 2).isLt
  have h3 : (i 3).val < 64 := (i 3).isLt
  refine ⟨⟨(i 0).val, h0⟩, flush1_1 _, ?_⟩
  rw [mem_blk]
  obtain ⟨-, -, -, -, e0, e1, e2, e3⟩ := idx_facts ⟨(i 0).val, h0⟩
  have e0' : win1_1.index ⟨(i 0).val, h0⟩ (0 : Fin 4) = (i 0).val := e0
  intro a
  match a with
  | ⟨0, _⟩ => show win1_1.index ⟨(i 0).val, h0⟩ (0 : Fin 4) * 1 ≤ (i 0).val ∧ (i 0).val < win1_1.index ⟨(i 0).val, h0⟩ (0 : Fin 4) * 1 + 1; omega
  | ⟨1, _⟩ => show win1_1.index ⟨(i 0).val, h0⟩ (1 : Fin 4) * 512 ≤ (i 1).val ∧ (i 1).val < win1_1.index ⟨(i 0).val, h0⟩ (1 : Fin 4) * 512 + 512; omega
  | ⟨2, _⟩ => show win1_1.index ⟨(i 0).val, h0⟩ (2 : Fin 4) * 64 ≤ (i 2).val ∧ (i 2).val < win1_1.index ⟨(i 0).val, h0⟩ (2 : Fin 4) * 64 + 64; omega
  | ⟨3, _⟩ => show win1_1.index ⟨(i 0).val, h0⟩ (3 : Fin 4) * 64 ≤ (i 3).val ∧ (i 3).val < win1_1.index ⟨(i 0).val, h0⟩ (3 : Fin 4) * 64 + 64; omega

/-- The output array after the region: `lastSoft` of the input array as the region finds it. -/
theorem final (c : Dev nD) : (dat1 V c).arrAt 1 cfg1.N = lastSoft (yarr V c) :=
  (dat1 V c).arrAt_eq_of_cover 1 (lastSoft (yarr V c)) (fun t _ => flushed_eq V c t) cover

end Cert.KernelIdeal.LastSoftmax

end
-- ==== Proof.KernelValue.lean ====
/-
  The idealized kernel's result as one function of its two arguments.  @main reshapes the arguments to
  [16, 512, 4096] (x1 becomes q, x0 becomes kv), runs the attention kernel, reshapes its output to [16, 512, 64, 64],
  and runs the softmax kernel.  The first region's two input arrays are therefore the reshaped arguments, its output
  array `attnOut` of them; the second region's input array is that output reshaped, and its output array — the
  result — `lastSoft` of it.
-/
import proofs.«143390_j35579509080688_1_alg».proof.Proof.NamedRun
import proofs.«143390_j35579509080688_1_alg».proof.Proof.AttentionValue
import proofs.«143390_j35579509080688_1_alg».proof.Proof.LastSoftmaxValue
import Idealize.ShloMosaic.Lib.StableHlo.Run

set_option maxRecDepth 16384

noncomputable section

namespace Cert.KernelIdeal.Whole

open Cert.KernelIdeal Cert.KernelIdeal.Gen Cert.ChanAttn
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region finds q: the second argument with its two trailing axes merged. -/
theorem q_entry (c : Dev nD) :
    Attention.qarr (V1 m ρ) c
      = shapeCast S16x512x4096 (m ((c.tc : Thread nD τ).loc main_arg1)) shapeCasts_S16x512x64x64_S16x512x4096 := by
  show StableHlo.after hostOps0 (W0 m ρ c) (Proc.devRef .tc main_v0) = _
  after_results
  rfl

/-- The first region finds kv: the first argument with its two trailing axes merged. -/
theorem kv_entry (c : Dev nD) :
    Attention.kvarr (V1 m ρ) c
      = shapeCast S16x512x4096 (m ((c.tc : Thread nD τ).loc main_arg0)) shapeCasts_S16x512x64x64_S16x512x4096 := by
  show StableHlo.after hostOps0 (W0 m ρ c) (Proc.devRef .tc main_v1) = _
  after_results
  rfl

/-- The second region finds the first region's output with its last axis split. -/
theorem y_entry (c : Dev nD) :
    LastSoftmax.yarr (V3 m ρ) c
      = shapeCast S16x512x64x64 ((dat0 (V1 m ρ) c).arrAt 2 cfg0.N) shapeCasts_S16x512x4096_S16x512x64x64 := by
  show StableHlo.after hostOps1 (W2 m ρ c) (Proc.devRef .tc main_v3) = _
  after_results
  exact congrArg (fun a => shapeCast S16x512x64x64 a shapeCasts_S16x512x4096_S16x512x64x64) (W2_arr m ρ c 2)

/-- The result array at the last boundary is `result` of the two arguments. -/
theorem result_eq (c : Dev nD) :
    W4 m ρ c (Proc.devRef .tc main_v4)
      = result shapeCasts_S16x512x64x64_S16x512x4096 shapeCasts_S16x512x4096_S16x512x64x64
          (m ((c.tc : Thread nD τ).loc main_arg0)) (m ((c.tc : Thread nD τ).loc main_arg1)) := by
  rw [Named.W4_result, LastSoftmax.final, y_entry, Attention.final, q_entry, kv_entry]
  rfl

/-- Every weakly fair execution of the idealized kernel terminates with the result array at `result` of the two
    arguments, and the arguments as launched. -/
theorem run : θ_run defs (onTc (τ := τ) (main (F := Ideal))) ⟨m, fun _ => 0, ρ⟩ (fun r => ∀ c : Dev nD,
      r.2.mem ((c.tc : Thread nD τ).loc main_v4)
        = result shapeCasts_S16x512x64x64_S16x512x4096 shapeCasts_S16x512x4096_S16x512x64x64
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Named.run m ρ)

end Cert.KernelIdeal.Whole

end
-- ==== Proof.LibHostMax.lean ====
/-
  The host's reduce with a maximum body along the last axis, read at one reduced index on the extended reals: the fold
  of `max` from the initial value over that axis's coordinate.  At rank three (an [m, a, b] array reduced to [m, a]) and
  at rank four (an [m, a, b, c] array reduced to [m, a, b]).
-/
import proofs.«143390_j35579509080688_1_alg».proof.Proof.LibKeepdims

noncomputable section

namespace Cert.Keepdims

open Idealize.ShloMosaic Idealize.ShloMosaic.ValueIdx

/-- `(k, i)` with the reduced last coordinate put back is `(k, i, l)`. -/
theorem lift_last3 {m a b : ℕ} (h : (⟨3, ![m, a, b]⟩ : Shape).Reduces [2] ⟨2, ![m, a]⟩) (k : Fin m) (i : Fin a)
    (l : Fin ((⟨3, ![m, a, b]⟩ : Shape).size 2)) : h.lift (ix2 k i) l = ix3 k i (⟨l.val, l.isLt⟩ : Fin b) := by
  funext d; apply Fin.ext
  fin_cases d <;> rfl

/-- The host's maximum along the last axis of an [m, a, b] array at `(k, i)`. -/
theorem host_max_last3 {m a b : ℕ} {u : Shape} (x : (⟨3, ![m, a, b]⟩ : Shape).Idx → EReal) (init : u.Idx → EReal)
    (h' : (⟨3, ![m, a, b]⟩ : Shape).ReducesTo [2] ⟨2, ![m, a]⟩) (h : (⟨3, ![m, a, b]⟩ : Shape).Reduces [2] ⟨2, ![m, a]⟩)
    (hu : 0 < u.numel) (k : Fin m) (i : Fin a) :
    Host.reduce (FloatOps.maximumf (F := Ideal) (φ := .f32)) x init h' hu (ix2 k i)
      = (Finset.univ : Finset (Fin b)).fold max (init (Shape.Idx.first hu)) fun l => x (ix3 k i l) := by
  rw [Host.reduce_eq_fold_single (FloatOps.maximumf (F := Ideal) (φ := .f32)) x init h' h hu]
  exact congrArg (fun f => Finset.fold max (init (Shape.Idx.first hu)) f (Finset.univ : Finset (Fin b)))
    (funext fun l => congrArg x (lift_last3 h k i l))

/-- The host's maximum along the last axis of an [m, a, b, c] array at `(k, i, j)`. -/
theorem host_max_last4 {m a b c : ℕ} {u : Shape} (x : (⟨4, ![m, a, b, c]⟩ : Shape).Idx → EReal) (init : u.Idx → EReal)
    (h' : (⟨4, ![m, a, b, c]⟩ : Shape).ReducesTo [3] ⟨3, ![m, a, b]⟩) (h : (⟨4, ![m, a, b, c]⟩ : Shape).Reduces [3] ⟨3, ![m, a, b]⟩)
    (hu : 0 < u.numel) (k : Fin m) (i : Fin a) (j : Fin b) :
    Host.reduce (FloatOps.maximumf (F := Ideal) (φ := .f32)) x init h' hu (ix3 k i j)
      = (Finset.univ : Finset (Fin c)).fold max (init (Shape.Idx.first hu)) fun l => x (ix4 k i j l) := by
  rw [Host.reduce_eq_fold_single (FloatOps.maximumf (F := Ideal) (φ := .f32)) x init h' h hu]
  exact congrArg (fun f => Finset.fold max (init (Shape.Idx.first hu)) f (Finset.univ : Finset (Fin c)))
    (funext fun l => congrArg x (lift_last h k i j l))

end Cert.Keepdims

end
-- ==== Proof.RefValue.lean ====
/-
  The reference's result, stage by stage, is `result` of the two arguments: its first product is `energy`, the row
  maximum and the subtraction give `flipped`, jax's softmax gives `softRow` of it, the second product gives
  `attnOut`, and after the reshape the second softmax is `lastSoft`.  Every stage but the three maxima is read at an
  index by the generated lemmas; the maxima are the host's reduce read as a fold.
-/
import proofs.«143390_j35579509080688_1_alg».proof.Proof.Gen.ReferenceIdeal.Read
import proofs.«143390_j35579509080688_1_alg».proof.Proof.Spec
import proofs.«143390_j35579509080688_1_alg».proof.Proof.LibHostMax

noncomputable section

namespace Cert.ReferenceIdeal.RefValue

open Cert.ReferenceIdeal Cert.ReferenceIdeal.Gen Cert.ReferenceIdeal.Read Cert.ChanAttn Cert.Keepdims
open Idealize.ShloMosaic Idealize.ShloMosaic.ValueIdx

variable (x0 x1 : (⟨S16x512x64x64, .f32⟩ : BufTy).Contents (Elt Ideal))

/-! ## The attention stage -/

theorem lidx2 (b : Fin 16) (c d : Fin 512) (k : Fin 4096) : lidx_main_v2 (ix3 b c d) k = ix3 b c k :=
  funext fun a => Fin.ext (by match a with | ⟨0, _⟩ => rfl | ⟨1, _⟩ => rfl | ⟨2, _⟩ => rfl)
theorem ridx2 (b : Fin 16) (c d : Fin 512) (k : Fin 4096) : ridx_main_v2 (ix3 b c d) k = ix3 b d k :=
  funext fun a => Fin.ext (by match a with | ⟨0, _⟩ => rfl | ⟨1, _⟩ => rfl | ⟨2, _⟩ => rfl)

/-- The first product is the energy. -/
theorem v2_apply (b : Fin 16) (c d : Fin 512) :
    val_main_v2 (F := Ideal) x0 x1 (ix3 b c d) = energy (val_main_v0 (F := Ideal) x1) (val_main_v1 (F := Ideal) x0) b c d := by
  rw [val_main_v2_apply]
  unfold energy
  exact Finset.sum_congr rfl fun k _ => by rw [lidx2, ridx2]

theorem idx45 (b : Fin 16) (c d : Fin 512) : idx_main_v4 (idx_main_v5 (ix3 b c d)) = ix2 b c :=
  funext fun a => Fin.ext (by match a with | ⟨0, _⟩ => rfl | ⟨1, _⟩ => rfl)

/-- The row's largest energy minus each. -/
theorem v6_apply (b : Fin 16) (c d : Fin 512) :
    val_main_v6 (F := Ideal) x0 x1 (ix3 b c d) = flipped (val_main_v0 (F := Ideal) x1) (val_main_v1 (F := Ideal) x0) b c d := by
  rw [val_main_v6_apply, val_main_v5_apply, val_main_v4_apply, idx45, v2_apply]
  unfold val_main_v3
  rw [host_max_last3 _ _ reducesTo_S16x512x512_S16x512_d2 (by decide) h_S_]
  show _ - _ = rowMax _ - _
  exact congrArg (fun r => Finset.fold max negInf r Finset.univ - _) (funext fun l => v2_apply x0 x1 b c l)

theorem idx1011 (b : Fin 16) (c d : Fin 512) : idx_main_v10 (idx_main_v11 (ix3 b c d)) = ix2 b c :=
  funext fun a => Fin.ext (by match a with | ⟨0, _⟩ => rfl | ⟨1, _⟩ => rfl)

/-- What the inner softmax subtracts. -/
theorem v11_apply (b : Fin 16) (c d : Fin 512) :
    val_main_v11 (F := Ideal) x0 x1 (ix3 b c d) = shift (flipped (val_main_v0 (F := Ideal) x1) (val_main_v1 (F := Ideal) x0) b c) := by
  rw [val_main_v11_apply, val_main_v10_apply, idx1011, val_main_v9_apply, val_main_v8_apply, val_main_cst_1_apply]
  unfold val_main_v7
  rw [host_max_last3 _ _ reducesTo_S16x512x512_S16x512_d2 (by decide) h_S_]
  show max negInf _ = max negInf (rowMax _)
  exact congrArg (fun r => max negInf (Finset.fold max negInf r Finset.univ)) (funext fun l => v6_apply x0 x1 b c l)

/-- The exponentials. -/
theorem v13_apply (b : Fin 16) (c d : Fin 512) :
    val_main_v13 (F := Ideal) x0 x1 (ix3 b c d)
      = Ideal.exp (flipped (val_main_v0 (F := Ideal) x1) (val_main_v1 (F := Ideal) x0) b c d
          - shift (flipped (val_main_v0 (F := Ideal) x1) (val_main_v1 (F := Ideal) x0) b c)) := by
  rw [val_main_v13_apply, val_main_v12_apply, v6_apply, v11_apply]
  rfl

theorem idx1516 (b : Fin 16) (c d : Fin 512) : idx_main_v15 (idx_main_v16 (ix3 b c d)) = ix2 b c :=
  funext fun a => Fin.ext (by match a with | ⟨0, _⟩ => rfl | ⟨1, _⟩ => rfl)
theorem idx14 (b : Fin 16) (c : Fin 512) (k : Fin 512) : idx_main_v14 (ix2 b c) k = ix3 b c k :=
  funext fun a => Fin.ext (by match a with | ⟨0, _⟩ => rfl | ⟨1, _⟩ => rfl | ⟨2, _⟩ => rfl)

/-- The attention weights. -/
theorem v17_apply (b : Fin 16) (c d : Fin 512) :
    val_main_v17 (F := Ideal) x0 x1 (ix3 b c d) = softRow (flipped (val_main_v0 (F := Ideal) x1) (val_main_v1 (F := Ideal) x0) b c) d := by
  rw [val_main_v17_apply, val_main_v16_apply, val_main_v15_apply, idx1516, val_main_v14_apply, v13_apply]
  unfold softRow
  show Ideal.div _ (Ideal.ofBits .f32 0x00000000#32 + _) = _
  rw [Ideal.ofBits_zero_f32, zero_add]
  exact congrArg (Ideal.div _) (Finset.sum_congr rfl fun k _ => by rw [idx14, v13_apply])

theorem lidx18 (b : Fin 16) (c : Fin 512) (n : Fin 4096) (k : Fin 512) : lidx_main_v18 (ix3 b c n) k = ix3 b c k :=
  funext fun a => Fin.ext (by match a with | ⟨0, _⟩ => rfl | ⟨1, _⟩ => rfl | ⟨2, _⟩ => rfl)
theorem ridx18 (b : Fin 16) (c : Fin 512) (n : Fin 4096) (k : Fin 512) : ridx_main_v18 (ix3 b c n) k = ix3 b k n :=
  funext fun a => Fin.ext (by match a with | ⟨0, _⟩ => rfl | ⟨1, _⟩ => rfl | ⟨2, _⟩ => rfl)

/-- The second product is the attention output. -/
theorem v18_eq : val_main_v18 (F := Ideal) x0 x1 = attnOut (val_main_v0 (F := Ideal) x1) (val_main_v1 (F := Ideal) x0) := by
  funext i
  obtain ⟨b, c, n, rfl⟩ : ∃ (b : Fin 16) (c : Fin 512) (n : Fin 4096), i = ix3 b c n := ⟨i 0, i 1, i 2, eq_ix3 i⟩
  rw [val_main_v18_apply, attnOut_ix3]
  unfold attnAt
  exact Finset.sum_congr rfl fun k _ => by rw [lidx18, ridx18, v17_apply]

/-! ## The last softmax -/

theorem idx2324 (b : Fin 16) (c : Fin 512) (h w : Fin 64) : idx_main_v23 (idx_main_v24 (ix4 b c h w)) = ix3 b c h :=
  funext fun a => Fin.ext (by match a with | ⟨0, _⟩ => rfl | ⟨1, _⟩ => rfl | ⟨2, _⟩ => rfl)

theorem v24_apply (b : Fin 16) (c : Fin 512) (h w : Fin 64) :
    val_main_v24 (F := Ideal) x0 x1 (ix4 b c h w) = shift fun w' : Fin 64 => val_main_v19 (F := Ideal) x0 x1 (ix4 b c h w') := by
  rw [val_main_v24_apply, val_main_v23_apply, idx2324, val_main_v22_apply, val_main_v21_apply, val_main_cst_4_apply]
  unfold val_main_v20
  rw [host_max_last4 _ _ reducesTo_S16x512x64x64_S16x512x64_d3 (by decide) h_S_]
  rfl

theorem v26_apply (b : Fin 16) (c : Fin 512) (h w : Fin 64) :
    val_main_v26 (F := Ideal) x0 x1 (ix4 b c h w)
      = Ideal.exp (val_main_v19 (F := Ideal) x0 x1 (ix4 b c h w) - shift fun w' : Fin 64 => val_main_v19 (F := Ideal) x0 x1 (ix4 b c h w')) := by
  rw [val_main_v26_apply, val_main_v25_apply, v24_apply]
  rfl

theorem idx2829 (b : Fin 16) (c : Fin 512) (h w : Fin 64) : idx_main_v28 (idx_main_v29 (ix4 b c h w)) = ix3 b c h :=
  funext fun a => Fin.ext (by match a with | ⟨0, _⟩ => rfl | ⟨1, _⟩ => rfl | ⟨2, _⟩ => rfl)
theorem idx27 (b : Fin 16) (c : Fin 512) (h : Fin 64) (k : Fin 64) : idx_main_v27 (ix3 b c h) k = ix4 b c h k :=
  funext fun a => Fin.ext (by match a with | ⟨0, _⟩ => rfl | ⟨1, _⟩ => rfl | ⟨2, _⟩ => rfl | ⟨3, _⟩ => rfl)

/-- The last stage is the softmax along the last axis of the reshaped attention output. -/
theorem v30_eq : val_main_v30 (F := Ideal) x0 x1 = lastSoft (val_main_v19 (F := Ideal) x0 x1) := by
  funext i
  obtain ⟨b, c, h, w, rfl⟩ : ∃ (b : Fin 16) (c : Fin 512) (h w : Fin 64), i = ix4 b c h w := ⟨i 0, i 1, i 2, i 3, eq_ix4 i⟩
  rw [lastSoft_ix4, val_main_v30_apply, val_main_v29_apply, val_main_v28_apply, idx2829, val_main_v27_apply, v26_apply]
  unfold lastSoftAt softRow
  show Ideal.div _ (Ideal.ofBits .f32 0x00000000#32 + _) = _
  rw [Ideal.ofBits_zero_f32, zero_add]
  exact congrArg (Ideal.div _) (Finset.sum_congr rfl fun k _ => by rw [idx27, v26_apply])

/-! ## The whole result -/

/-- The reference's result stage is `result` of the two arguments. -/
theorem v30_result : val_main_v30 (F := Ideal) x0 x1
    = result shapeCasts_S16x512x64x64_S16x512x4096 shapeCasts_S16x512x4096_S16x512x64x64 x0 x1 := by
  rw [v30_eq]
  unfold result
  refine congrArg lastSoft ?_
  show shapeCast _ (val_main_v18 (F := Ideal) x0 x1) _ = _
  rw [v18_eq]
  rfl

end Cert.ReferenceIdeal.RefValue

end
-- ==== Proof.lean ====
/-
  Channel-guided attention: with q = x_pre and kv = x_training read as [16, 512, 4096] arrays,
    out[b, c, ·] = softmax_d( max_d' E[b, c, d'] − E[b, c, d] ) · kv[b],   E[b, c, d] = Σ_n q[b, c, n] · kv[b, d, n],
  followed by a softmax along the last axis of out read as [16, 512, 64, 64].

  The kernel computes it in two regions — the attention for 256 rows of one batch entry per grid point, in bf16 with
  f32 accumulation, then the last softmax for one batch entry per grid point — and the reference in f32 on the host.
  On the extended reals a change of float format is the identity, a matrix product into a zero accumulator and the
  host's dot_general are the same sum over the contracted coordinate, a lane reduction and the host's reduce are the
  same sum or the same fold of max, and the two programs apply the same operations in the same order with the same
  literals.  So both results are `Cert.ChanAttn.result` of the two arguments, index by index; no algebraic law beyond
  reindexing the sums is used, and the finiteness of the inputs is not needed.

  The three programs' runs: the word-level kernel's and the idealized kernel's are the generated frames; the
  idealized kernel's run with its result named is the launch theorem called once more (NamedRun), the two regions'
  output arrays are read off the grid block by block (AttentionValue, LastSoftmaxValue) and composed through the
  host reshapes (KernelValue); the reference's run is generated, and its result stage is read operation by operation
  (RefValue).  The ideal pass rewrote nothing, so the kernel's idealization is its own text.
-/
import proofs.«143390_j35579509080688_1_alg».proof.Defs
import proofs.«143390_j35579509080688_1_alg».proof.Proof.Gen.Kernel
import proofs.«143390_j35579509080688_1_alg».proof.Proof.Gen.Kernel.Skeleton
import proofs.«143390_j35579509080688_1_alg».proof.Proof.Gen.Kernel.Launch
import proofs.«143390_j35579509080688_1_alg».proof.Proof.Gen.Kernel.Points
import proofs.«143390_j35579509080688_1_alg».proof.Proof.Gen.Kernel.Frame
import proofs.«143390_j35579509080688_1_alg».proof.Proof.Gen.KernelIdeal
import proofs.«143390_j35579509080688_1_alg».proof.Proof.Gen.KernelIdeal.Skeleton
import proofs.«143390_j35579509080688_1_alg».proof.Proof.Gen.KernelIdeal.Launch
import proofs.«143390_j35579509080688_1_alg».proof.Proof.Gen.KernelIdeal.Points
import proofs.«143390_j35579509080688_1_alg».proof.Proof.Gen.KernelIdeal.Frame
import proofs.«143390_j35579509080688_1_alg».proof.Proof.Gen.ReferenceIdeal
import proofs.«143390_j35579509080688_1_alg».proof.Proof.Gen.ReferenceIdeal.Run
import proofs.«143390_j35579509080688_1_alg».proof.Proof.Gen.ReferenceIdeal.Read
import proofs.«143390_j35579509080688_1_alg».proof.Proof.Gen.Pre_finite_inputs
import proofs.«143390_j35579509080688_1_alg».proof.Proof.KernelValue
import proofs.«143390_j35579509080688_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the idealized kernel and the reference, from memories that agree on the arguments, both end
    with the result at `result` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.v30_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
